-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S2x500000 : Shape := ⟨2, ![2, 500000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_v28 : IVec S_ 1) (main_v33 : IVec S2x500000 1) : IVec S_ 1 :=
  let main_c_12 : IVec S_ 1 := constantI S_ 1 1#1
  let main_v34 : IVec S_ 1 := (fun x v => Host.reduce IntOp.andi x v reducesTo_S2x500000_S_d0_1 h_S_) main_v33 main_c_12
  let main_v35 : IVec S_ 1 := andi main_v28 main_v34
  main_v35

def fn_part1 {F : FTy → Type} [FloatOps F] (main_arg2 : IVec S2x500000 32) (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S2x500000 32 := broadcastInDim S2x500000 ![] bcast_S_S2x500000 main_c_10
  let main_v30 : IVec S2x500000 1 := cmpi .sge main_arg2 main_v29
  let main_c_11 : IVec S_ 32 := constantI S_ 32 50000#32
  let main_v31 : IVec S2x500000 32 := broadcastInDim S2x500000 ![] bcast_S_S2x500000 main_c_11
  let main_v32 : IVec S2x500000 1 := cmpi .slt main_arg2 main_v31
  let main_v33 : IVec S2x500000 1 := andi main_v30 main_v32
  fn_part2 (F := F) main_v28 main_v33

def fn {F : FTy → Type} [FloatOps F] (main_arg0 : FVec F S50000x128 .f32) (main_arg1 : FVec F S500000x128 .f32) (main_arg2 : IVec S2x500000 32) (main_arg3 : FVec F S384x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x256 .f32 := Host.absf main_arg3
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_v13 main_v16
-- ==== Kernel.lean ====
abbrev S50000x128 : Shape := ⟨2, ![50000, 128]⟩
abbrev S500000x128 : Shape := ⟨2, ![500000, 128]⟩
abbrev S2x500000 : Shape := ⟨2, ![2, 500000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S128x256 : Shape := ⟨2, ![128, 256]⟩
abbrev S1x256 : Shape := ⟨2, ![1, 256]⟩
abbrev S1x128 : Shape := ⟨2, ![1, 128]⟩
abbrev S4000x128 : Shape := ⟨2, ![4000, 128]⟩
abbrev S4000x256 : Shape := ⟨2, ![4000, 256]⟩

abbrev nBuf : Space → Nat
  | .hbm => 63
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S2x500000, .i32⟩
  | .hbm, ⟨3, _⟩ => ⟨S384x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S1, .i32⟩
  | .hbm, ⟨20, _⟩ => ⟨S_, .i32⟩
  | .hbm, ⟨21, _⟩ => ⟨S500000x1, .i32⟩
  | .hbm, ⟨22, _⟩ => ⟨S500000x1, .i1⟩
  | .hbm, ⟨23, _⟩ => ⟨S1x1, .i32⟩
  | .hbm, ⟨24, _⟩ => ⟨S500000x1, .i32⟩
  | .hbm, ⟨25, _⟩ => ⟨S500000x1, .i1⟩
  | .hbm, ⟨26, _⟩ => ⟨S500000x1, .i1⟩
  | .hbm, ⟨27, _⟩ => ⟨S_, .i1⟩
  | .hbm, ⟨28, _⟩ => ⟨S500000, .i1⟩
  | .hbm, ⟨29, _⟩ => ⟨S500000x128, .f32⟩
  | .hbm, ⟨30, _⟩ => ⟨S500000x128, .i1⟩
  | .hbm, ⟨31, _⟩ => ⟨S_, .f32⟩
  | .hbm, ⟨32, _⟩ => ⟨S500000x128, .f32⟩
  | .hbm, ⟨33, _⟩ => ⟨S500000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S1, .i32⟩
  | .hbm, ⟨43, _⟩ => ⟨S_, .i32⟩
  | .hbm, ⟨44, _⟩ => ⟨S500000x1, .i32⟩
  | .hbm, ⟨45, _⟩ => ⟨S500000x1, .i1⟩
  | .hbm, ⟨46, _⟩ => ⟨S1x1, .i32⟩
  | .hbm, ⟨47, _⟩ => ⟨S500000x1, .i32⟩
  | .hbm, ⟨48, _⟩ => ⟨S500000x1, .i1⟩
  | .hbm, ⟨49, _⟩ => ⟨S500000x1, .i1⟩
  | .hbm, ⟨50, _⟩ => ⟨S_, .i1⟩
  | .hbm, ⟨51, _⟩ => ⟨S500000, .i1⟩
  | .hbm, ⟨52, _⟩ => ⟨S500000x128, .f32⟩
  | .hbm, ⟨53, _⟩ => ⟨S500000x128, .i1⟩
  | .hbm, ⟨54, _⟩ => ⟨S_, .f32⟩
  | .hbm, ⟨55, _⟩ => ⟨S500000x128, .f32⟩
  | .hbm, ⟨56, _⟩ => ⟨S500000x128, .f32⟩
  | .hbm, ⟨57, _⟩ => ⟨S128x256, .f32⟩
  | .hbm, ⟨58, _⟩ => ⟨S128x256, .f32⟩
  | .hbm, ⟨59, _⟩ => ⟨S128x256, .f32⟩
  | .hbm, ⟨60, _⟩ => ⟨S1x256, .f32⟩
  | .hbm, ⟨61, _⟩ => ⟨S1x128, .f32⟩
  | .hbm, ⟨62, _⟩ => ⟨S500000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S384x256_S128x256_0_0 : S384x256.Slices ![0, 0] S128x256
  slices_S384x256_S128x256_128_0 : S384x256.Slices ![128, 0] S128x256
  slices_S384x256_S128x256_256_0 : S384x256.Slices ![256, 0] S128x256
  shapeCasts_S256_S1x256 : S256.ShapeCasts S1x256
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S50000x128_S500000x1_S500000x128_1_0_n_n_0_1_1128_wf : GatherDims.WF S50000x128 S500000x1 S500000x128 [1] [0] [] [0] [] 1 ![1, 128]
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .f32 = 32 ∨ (Rect.block (s := S500000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S500000x128.size a
  hwx0_9 : ∀ i : grid0.Coords, EltTy.bits .f32 = 32 ∨ (Rect.block (s := S500000x128) S4000x128.size (cc0_transform_9 i) (hinb0_9 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S2x500000 : Shape := ⟨2, ![2, 500000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S500000x256 : Shape := ⟨2, ![500000, 256]⟩
abbrev S1x256 : Shape := ⟨2, ![1, 256]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S2x500000, .i32⟩
  | .hbm, ⟨3, _⟩ => ⟨S384x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x384, .f32⟩
  | .hbm, ⟨30, _⟩ => ⟨S500000x256, .f32⟩
  | .hbm, ⟨31, _⟩ => ⟨S1x256, .f32⟩
  | .hbm, ⟨32, _⟩ => ⟨S500000x256, .f32⟩
  | .hbm, ⟨33, _⟩ => ⟨S500000x256, .f32⟩
  | .hbm, ⟨34, _⟩ => ⟨S_, .f32⟩
  | .hbm, ⟨35, _⟩ => ⟨S500000x256, .f32⟩
  | .hbm, ⟨36, _⟩ => ⟨S500000x256, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | .hbm, ⟨41, _⟩ => ⟨S500000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  gather_S50000x128_S500000x1_S500000x128_1_0_n_n_0_1_1128_wf : GatherDims.WF S50000x128 S500000x1 S500000x128 [1] [0] [] [0] [] 1 ![1, 128]
  dot_S500000x384_S384x256_S500000x256_1_0_0_1_n_n_wf : DotDims.WF S500000x384 S384x256 S500000x256 [1] [0] [0] [1] [] []
  dot_S500000x256_S256x128_S500000x128_1_0_0_1_n_n_wf : DotDims.WF S500000x256 S256x128 S500000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf

class Facts : Prop extends Facts₀ where

variable [Facts]
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.EdgeSpec.lean ====
/-
  An edge update of a message-passing layer, as a function on the extended reals, index by index, over plain
  coordinates (Fin).  For an edge e with source row hs e, destination row hd e and edge row he e (each of width 128):

      hidden e k = max ( hs e . Ws[:,k] + hd e . Wd[:,k] + he e . We[:,k] + b1 k , 0 )        (k < 256)
      out e j    = he e j + ( sum_k hidden e k * W2 k j + b2 j )                                (j < 128)

  Every output row depends on the same row of hs, hd, he only (upd_row), so a block of rows and the whole array are
  the same function of their rows.  Two spellings are read onto it: the vector dialect's, which keeps the three
  128-wide contractions apart (three matrix-unit products into zero accumulators, added), and the host's, which
  contracts ONE 384-wide row [hs | hd | he] (a concatenation along the columns) against the weight matrix whose
  three 128-row bands are Ws, Wd, We.  The two agree because a finite sum over Fin 384 splits at 128 and 256
  (Fin.sum_univ_add): associativity and commutativity of + on the extended reals only, nothing about finiteness.
-/
import Idealize.ShloMosaic.PureOps.Ideal
import Idealize.ShloMosaic.PureOps.Ideal.Laws
import Idealize.ShloMosaic.Lib.ValueIdx
import Idealize.ShloMosaic.Lib.Pipeline.Value
import proofs.«422206_j15040975470645_1_alg».proof.Proof.LibMlp

noncomputable section

open Idealize.ShloMosaic Idealize.ShloMosaic.ValueIdx

namespace Cert.EdgeMlp

open Cert.Mlp (plain_sum bcast_row bcast_two row vec zero)

/-- A matrix of extended reals over plain coordinates. -/
abbrev Mat (a b : ℕ) : Type := (⟨2, ![a, b]⟩ : Shape).Idx → EReal

/-- The three 128-wide contractions of one edge row against one hidden column, added left to right. -/
def pre3 {N : ℕ} (hs hd he : Mat N 128) (Ws Wd We : Mat 128 256) (p : Fin N) (k : Fin 256) : EReal :=
  ((∑ a : Fin 128, hs (ix2 p a) * Ws (ix2 a k)) + ∑ a : Fin 128, hd (ix2 p a) * Wd (ix2 a k))
    + ∑ a : Fin 128, he (ix2 p a) * We (ix2 a k)

/-- The hidden layer: the three contractions, the bias, the rectifier. -/
def hid {N : ℕ} (hs hd he : Mat N 128) (Ws Wd We : Mat 128 256) (b1 : Fin 256 → EReal) : Mat N 256 := fun i =>
  max (pre3 hs hd he Ws Wd We (i 0) (i 1) + b1 (i 1)) zero

/-- The updated edge features: the edge row plus the second dense stage of the hidden layer. -/
def upd {N : ℕ} (hs hd he : Mat N 128) (Ws Wd We : Mat 128 256) (b1 : Fin 256 → EReal) (W2 : Mat 256 128)
    (b2 : Fin 128 → EReal) : Mat N 128 := fun i =>
  he i + ((∑ k : Fin 256, hid hs hd he Ws Wd We b1 (ix2 (i 0) k) * W2 (ix2 k (i 1))) + b2 (i 1))

/-- The three 128-row bands of the stacked first-stage weights: rows 0-127, 128-255, 256-383. -/
def bandS (W1 : Mat 384 256) : Mat 128 256 := fun i => W1 (ix2 (Fin.castAdd 128 (Fin.castAdd 128 (i 0))) (i 1))
def bandD (W1 : Mat 384 256) : Mat 128 256 := fun i => W1 (ix2 (Fin.castAdd 128 (Fin.natAdd 128 (i 0))) (i 1))
def bandE (W1 : Mat 384 256) : Mat 128 256 := fun i => W1 (ix2 (Fin.natAdd 256 (i 0)) (i 1))

/-- A 128-row slice of the stacked weights from row 0, 128 or 256 is the band. -/
theorem slice_bandS (W1 : Mat 384 256) (h : (⟨2, ![384, 256]⟩ : Shape).Slices ![0, 0] ⟨2, ![128, 256]⟩) :
    extractStridedSlice (⟨2, ![128, 256]⟩ : Shape) ![0, 0] W1 h = bandS W1 := by
  funext i
  exact extractStridedSlice_apply _ W1 h i _ fun a => match a with
    | ⟨0, _⟩ => (Nat.zero_add _).symm
    | ⟨1, _⟩ => (Nat.zero_add _).symm
theorem slice_bandD (W1 : Mat 384 256) (h : (⟨2, ![384, 256]⟩ : Shape).Slices ![128, 0] ⟨2, ![128, 256]⟩) :
    extractStridedSlice (⟨2, ![128, 256]⟩ : Shape) ![128, 0] W1 h = bandD W1 := by
  funext i
  exact extractStridedSlice_apply _ W1 h i _ fun a => match a with
    | ⟨0, _⟩ => rfl
    | ⟨1, _⟩ => (Nat.zero_add _).symm
theorem slice_bandE (W1 : Mat 384 256) (h : (⟨2, ![384, 256]⟩ : Shape).Slices ![256, 0] ⟨2, ![128, 256]⟩) :
    extractStridedSlice (⟨2, ![128, 256]⟩ : Shape) ![256, 0] W1 h = bandE W1 := by
  funext i
  exact extractStridedSlice_apply _ W1 h i _ fun a => match a with
    | ⟨0, _⟩ => rfl
    | ⟨1, _⟩ => (Nat.zero_add _).symm

/-! ## Row locality -/

theorem pre3_row {N N' : ℕ} (hs hd he : Mat N 128) (hs' hd' he' : Mat N' 128) (Ws Wd We : Mat 128 256)
    (r : Fin N) (r' : Fin N') (k : Fin 256)
    (h1 : ∀ a : Fin 128, hs (ix2 r a) = hs' (ix2 r' a)) (h2 : ∀ a : Fin 128, hd (ix2 r a) = hd' (ix2 r' a))
    (h3 : ∀ a : Fin 128, he (ix2 r a) = he' (ix2 r' a)) :
    pre3 hs hd he Ws Wd We r k = pre3 hs' hd' he' Ws Wd We r' k := by
  unfold pre3
  simp only [h1, h2, h3]

/-- The hidden layer reads only the row it is asked for. -/
theorem hid_row {N N' : ℕ} (hs hd he : Mat N 128) (hs' hd' he' : Mat N' 128) (Ws Wd We : Mat 128 256)
    (b1 : Fin 256 → EReal) (r : Fin N) (r' : Fin N') (k : Fin 256)
    (h1 : ∀ a : Fin 128, hs (ix2 r a) = hs' (ix2 r' a)) (h2 : ∀ a : Fin 128, hd (ix2 r a) = hd' (ix2 r' a))
    (h3 : ∀ a : Fin 128, he (ix2 r a) = he' (ix2 r' a)) :
    hid hs hd he Ws Wd We b1 (ix2 r k) = hid hs' hd' he' Ws Wd We b1 (ix2 r' k) := by
  show max (pre3 hs hd he Ws Wd We r k + b1 k) zero = max (pre3 hs' hd' he' Ws Wd We r' k + b1 k) zero
  rw [pre3_row hs hd he hs' hd' he' Ws Wd We r r' k h1 h2 h3]

/-- The update reads only the row it is asked for: inputs that agree on a row give the same row. -/
theorem upd_row {N N' : ℕ} (hs hd he : Mat N 128) (hs' hd' he' : Mat N' 128) (Ws Wd We : Mat 128 256)
    (b1 : Fin 256 → EReal) (W2 : Mat 256 128) (b2 : Fin 128 → EReal) (r : Fin N) (r' : Fin N') (j : Fin 128)
    (h1 : ∀ a : Fin 128, hs (ix2 r a) = hs' (ix2 r' a)) (h2 : ∀ a : Fin 128, hd (ix2 r a) = hd' (ix2 r' a))
    (h3 : ∀ a : Fin 128, he (ix2 r a) = he' (ix2 r' a)) :
    upd hs hd he Ws Wd We b1 W2 b2 (ix2 r j) = upd hs' hd' he' Ws Wd We b1 W2 b2 (ix2 r' j) := by
  show he (ix2 r j) + ((∑ k : Fin 256, hid hs hd he Ws Wd We b1 (ix2 r k) * W2 (ix2 k j)) + b2 j)
    = he' (ix2 r' j) + ((∑ k : Fin 256, hid hs' hd' he' Ws Wd We b1 (ix2 r' k) * W2 (ix2 k j)) + b2 j)
  rw [h3 j]
  have : (∑ k : Fin 256, hid hs hd he Ws Wd We b1 (ix2 r k) * W2 (ix2 k j))
      = ∑ k : Fin 256, hid hs' hd' he' Ws Wd We b1 (ix2 r' k) * W2 (ix2 k j) :=
    Finset.sum_congr rfl fun k _ => by rw [hid_row hs hd he hs' hd' he' Ws Wd We b1 r r' k h1 h2 h3]
  rw [this]

/-! ## A sum over Fin 384 splits at 128 and 256 -/

theorem sum_three (f : Fin 384 → EReal) :
    (∑ K : Fin 384, f K)
      = ((∑ a : Fin 128, f (Fin.castAdd 128 (Fin.castAdd 128 a))) + ∑ a : Fin 128, f (Fin.castAdd 128 (Fin.natAdd 128 a)))
        + ∑ a : Fin 128, f (Fin.natAdd 256 a) := by
  have e1 : (∑ K : Fin (256 + 128), f K)
      = (∑ i : Fin 256, f (Fin.castAdd 128 i)) + ∑ a : Fin 128, f (Fin.natAdd 256 a) := @Fin.sum_univ_add EReal _ 256 128 f
  have e2 : (∑ i : Fin (128 + 128), f (Fin.castAdd 128 i))
      = (∑ a : Fin 128, f (Fin.castAdd 128 (Fin.castAdd 128 a))) + ∑ a : Fin 128, f (Fin.castAdd 128 (Fin.natAdd 128 a)) :=
    @Fin.sum_univ_add EReal _ 128 128 fun i : Fin (128 + 128) => f (Fin.castAdd 128 i)
  exact e1.trans (congrArg (· + ∑ a : Fin 128, f (Fin.natAdd 256 a)) e2)

/-! ## Three arrays side by side, read at an index -/

section Pieces
variable {α : Type}

/-- Left of the first seam, three arrays side by side read the first. -/
theorem beside3_left {N : ℕ}
    (hc : Shape.Concatenates [(⟨2, ![N, 128]⟩ : Shape), ⟨2, ![N, 128]⟩, ⟨2, ![N, 128]⟩] ⟨2, ![N, 384]⟩ 1)
    (a b c : (⟨2, ![N, 128]⟩ : Shape).Idx → α) (p : Fin N) (k : Fin 128) :
    concatenate (⟨2, ![N, 384]⟩ : Shape) 1 [⟨⟨2, ![N, 128]⟩, a⟩, ⟨⟨2, ![N, 128]⟩, b⟩, ⟨⟨2, ![N, 128]⟩, c⟩] hc
      (ix2 p (Fin.castAdd 128 (Fin.castAdd 128 k))) = a (ix2 p k) :=
  concatenate_apply_piece 1 ([⟨⟨2, ![N, 128]⟩, a⟩, ⟨⟨2, ![N, 128]⟩, b⟩, ⟨⟨2, ![N, 128]⟩, c⟩] : List ((s : Shape) × (s.Idx → α))) hc _ 0
    (by show 0 < 3; omega) _ a rfl rfl 0 rfl (ix2 p k)
    (fun d hne => match d, hne with | ⟨0, _⟩, _ => rfl | ⟨1, _⟩, h => absurd rfl h)
    (by show 0 + k.val = k.val; omega)

/-- Between the seams they read the second, the column counted from the first seam. -/
theorem beside3_mid {N : ℕ}
    (hc : Shape.Concatenates [(⟨2, ![N, 128]⟩ : Shape), ⟨2, ![N, 128]⟩, ⟨2, ![N, 128]⟩] ⟨2, ![N, 384]⟩ 1)
    (a b c : (⟨2, ![N, 128]⟩ : Shape).Idx → α) (p : Fin N) (k : Fin 128) :
    concatenate (⟨2, ![N, 384]⟩ : Shape) 1 [⟨⟨2, ![N, 128]⟩, a⟩, ⟨⟨2, ![N, 128]⟩, b⟩, ⟨⟨2, ![N, 128]⟩, c⟩] hc
      (ix2 p (Fin.castAdd 128 (Fin.natAdd 128 k))) = b (ix2 p k) :=
  concatenate_apply_piece 1 ([⟨⟨2, ![N, 128]⟩, a⟩, ⟨⟨2, ![N, 128]⟩, b⟩, ⟨⟨2, ![N, 128]⟩, c⟩] : List ((s : Shape) × (s.Idx → α))) hc _ 1
    (by show 1 < 3; omega) _ b rfl rfl 128 rfl (ix2 p k)
    (fun d hne => match d, hne with | ⟨0, _⟩, _ => rfl | ⟨1, _⟩, h => absurd rfl h)
    (by show 128 + k.val = 128 + k.val; rfl)

/-- Right of the second seam they read the third, the column counted from that seam. -/
theorem beside3_right {N : ℕ}
    (hc : Shape.Concatenates [(⟨2, ![N, 128]⟩ : Shape), ⟨2, ![N, 128]⟩, ⟨2, ![N, 128]⟩] ⟨2, ![N, 384]⟩ 1)
    (a b c : (⟨2, ![N, 128]⟩ : Shape).Idx → α) (p : Fin N) (k : Fin 128) :
    concatenate (⟨2, ![N, 384]⟩ : Shape) 1 [⟨⟨2, ![N, 128]⟩, a⟩, ⟨⟨2, ![N, 128]⟩, b⟩, ⟨⟨2, ![N, 128]⟩, c⟩] hc
      (ix2 p (Fin.natAdd 256 k)) = c (ix2 p k) :=
  concatenate_apply_piece 1 ([⟨⟨2, ![N, 128]⟩, a⟩, ⟨⟨2, ![N, 128]⟩, b⟩, ⟨⟨2, ![N, 128]⟩, c⟩] : List ((s : Shape) × (s.Idx → α))) hc _ 2
    (by show 2 < 3; omega) _ c rfl rfl 256 rfl (ix2 p k)
    (fun d hne => match d, hne with | ⟨0, _⟩, _ => rfl | ⟨1, _⟩, h => absurd rfl h)
    (by show 256 + k.val = 256 + k.val; rfl)

end Pieces

end Cert.EdgeMlp

end
-- ==== Proof.EdgeSpell.lean ====
/-
  The two spellings of the edge update (upd, hid), read onto it at the extended reals.

  The vector dialect's: three matrix-unit products into zero accumulators (source rows against Ws, destination rows
  against Wd, edge rows against We), added left to right, a one-row bias broadcast down the rows, the rectifier, a fourth
  product against W2, a second one-row bias, and the edge block added in front.  The changes of float format on the way
  (to the narrow format before each product) are the identity on the extended reals.

  The host's: ONE product of the 384-wide rows [hs | hd | he] against the stacked weights, the biases broadcast in
  two steps.  Its contraction over Fin 384 splits at the two seams into the three 128-wide ones.
-/
import Idealize.ShloMosaic.PureOps.Ideal
import Idealize.ShloMosaic.PureOps.Ideal.Laws
import Idealize.ShloMosaic.Lib.ValueIdx
import Idealize.ShloMosaic.Lib.Pipeline.Value
import proofs.«422206_j15040975470645_1_alg».proof.Proof.LibMlp
import proofs.«422206_j15040975470645_1_alg».proof.Proof.EdgeSpec

noncomputable section

open Idealize.ShloMosaic Idealize.ShloMosaic.ValueIdx

namespace Cert.EdgeMlp

open Cert.Mlp (plain_sum bcast_row bcast_two row vec zero)

/-! ## The vector dialect's spelling -/

/-- A matrix-unit product into a zero accumulator of operands narrowed first, read at (p, q): the plain sum. -/
theorem mm_apply {N K H : ℕ} (d : DotDims ⟨2, ![N, K]⟩ ⟨2, ![K, H]⟩ ⟨2, ![N, H]⟩) (hd : d = DotDims.plain N K H)
    (ht : FTy.bits .bf16 < FTy.bits .f32) (a : FVec Ideal ⟨2, ![N, K]⟩ .f32) (W : FVec Ideal ⟨2, ![K, H]⟩ .f32)
    (p : Fin N) (q : Fin H) :
    matmul d none (truncf .bf16 a ht) (truncf .bf16 W ht) (constant ⟨2, ![N, H]⟩ .f32 0x00000000#32) (ix2 p q)
      = ∑ k : Fin K, a (ix2 p k) * W (ix2 k q) := by
  subst hd
  exact (Ideal.matmul_constant_zero_apply (DotDims.plain N K H) none (truncf .bf16 a ht) (truncf .bf16 W ht) (ix2 p q)).trans
    (plain_sum (truncf .bf16 a ht) (truncf .bf16 W ht) (ix2 p q))

/-- The hidden layer as the vector dialect spells it. -/
def vhid {N : ℕ} (d1 : DotDims ⟨2, ![N, 128]⟩ ⟨2, ![128, 256]⟩ ⟨2, ![N, 256]⟩)
    (hb1 : (⟨2, ![1, 256]⟩ : Shape).Broadcasts ⟨2, ![N, 256]⟩) (ht : FTy.bits .bf16 < FTy.bits .f32)
    (x0 x1 x2 : FVec Ideal ⟨2, ![N, 128]⟩ .f32) (x3 x4 x5 : FVec Ideal ⟨2, ![128, 256]⟩ .f32)
    (x6 : FVec Ideal ⟨2, ![1, 256]⟩ .f32) : FVec Ideal ⟨2, ![N, 256]⟩ .f32 :=
  maximumf (addf (addf (addf
      (matmul d1 none (truncf .bf16 x0 ht) (truncf .bf16 x3 ht) (constant ⟨2, ![N, 256]⟩ .f32 0x00000000#32))
      (matmul d1 none (truncf .bf16 x1 ht) (truncf .bf16 x4 ht) (constant ⟨2, ![N, 256]⟩ .f32 0x00000000#32)))
      (matmul d1 none (truncf .bf16 x2 ht) (truncf .bf16 x5 ht) (constant ⟨2, ![N, 256]⟩ .f32 0x00000000#32)))
      (broadcastTo ⟨2, ![N, 256]⟩ x6 hb1))
    (broadcast ⟨2, ![N, 256]⟩ (Scalar.ofBits .f32 0x00000000#32))

theorem vhid_apply {N : ℕ} (d1 : DotDims ⟨2, ![N, 128]⟩ ⟨2, ![128, 256]⟩ ⟨2, ![N, 256]⟩) (hd1 : d1 = DotDims.plain N 128 256)
    (hb1 : (⟨2, ![1, 256]⟩ : Shape).Broadcasts ⟨2, ![N, 256]⟩) (ht : FTy.bits .bf16 < FTy.bits .f32)
    (x0 x1 x2 : FVec Ideal ⟨2, ![N, 128]⟩ .f32) (x3 x4 x5 : FVec Ideal ⟨2, ![128, 256]⟩ .f32)
    (x6 : FVec Ideal ⟨2, ![1, 256]⟩ .f32) (p : Fin N) (k : Fin 256) :
    vhid d1 hb1 ht x0 x1 x2 x3 x4 x5 x6 (ix2 p k) = hid x0 x1 x2 x3 x4 x5 (row x6) (ix2 p k) := by
  show max ((((matmul d1 none (truncf .bf16 x0 ht) (truncf .bf16 x3 ht) (constant ⟨2, ![N, 256]⟩ .f32 0x00000000#32) (ix2 p k)
        + matmul d1 none (truncf .bf16 x1 ht) (truncf .bf16 x4 ht) (constant ⟨2, ![N, 256]⟩ .f32 0x00000000#32) (ix2 p k))
        + matmul d1 none (truncf .bf16 x2 ht) (truncf .bf16 x5 ht) (constant ⟨2, ![N, 256]⟩ .f32 0x00000000#32) (ix2 p k))
        + broadcastTo ⟨2, ![N, 256]⟩ x6 hb1 (ix2 p k))) zero
    = max ((((∑ a : Fin 128, x0 (ix2 p a) * x3 (ix2 a k)) + ∑ a : Fin 128, x1 (ix2 p a) * x4 (ix2 a k))
        + ∑ a : Fin 128, x2 (ix2 p a) * x5 (ix2 a k)) + x6 (ix2 0 k)) zero
  rw [mm_apply d1 hd1 ht x0 x3 p k, mm_apply d1 hd1 ht x1 x4 p k, mm_apply d1 hd1 ht x2 x5 p k, bcast_row hb1 x6 p k]

/-- The vector dialect's edge update is the edge update. -/
theorem vec_upd {N : ℕ} (d1 : DotDims ⟨2, ![N, 128]⟩ ⟨2, ![128, 256]⟩ ⟨2, ![N, 256]⟩) (hd1 : d1 = DotDims.plain N 128 256)
    (d2 : DotDims ⟨2, ![N, 256]⟩ ⟨2, ![256, 128]⟩ ⟨2, ![N, 128]⟩) (hd2 : d2 = DotDims.plain N 256 128)
    (hb1 : (⟨2, ![1, 256]⟩ : Shape).Broadcasts ⟨2, ![N, 256]⟩) (hb2 : (⟨2, ![1, 128]⟩ : Shape).Broadcasts ⟨2, ![N, 128]⟩)
    (ht : FTy.bits .bf16 < FTy.bits .f32)
    (x0 x1 x2 : FVec Ideal ⟨2, ![N, 128]⟩ .f32) (x3 x4 x5 : FVec Ideal ⟨2, ![128, 256]⟩ .f32)
    (x6 : FVec Ideal ⟨2, ![1, 256]⟩ .f32) (x7 : FVec Ideal ⟨2, ![256, 128]⟩ .f32) (x8 : FVec Ideal ⟨2, ![1, 128]⟩ .f32) :
    addf x2 (addf (matmul d2 none (truncf .bf16 (vhid d1 hb1 ht x0 x1 x2 x3 x4 x5 x6) ht) (truncf .bf16 x7 ht)
        (constant ⟨2, ![N, 128]⟩ .f32 0x00000000#32)) (broadcastTo ⟨2, ![N, 128]⟩ x8 hb2))
      = upd x0 x1 x2 x3 x4 x5 (row x6) x7 (row x8) := by
  funext i
  obtain ⟨p, q, rfl⟩ : ∃ (p : Fin N) (q : Fin 128), i = ix2 p q := ⟨i 0, i 1, eq_ix2 i⟩
  show x2 (ix2 p q) + (matmul d2 none (truncf .bf16 (vhid d1 hb1 ht x0 x1 x2 x3 x4 x5 x6) ht) (truncf .bf16 x7 ht)
        (constant ⟨2, ![N, 128]⟩ .f32 0x00000000#32) (ix2 p q) + broadcastTo ⟨2, ![N, 128]⟩ x8 hb2 (ix2 p q))
    = x2 (ix2 p q) + ((∑ k : Fin 256, hid x0 x1 x2 x3 x4 x5 (row x6) (ix2 p k) * x7 (ix2 k q)) + x8 (ix2 0 q))
  rw [mm_apply d2 hd2 ht (vhid d1 hb1 ht x0 x1 x2 x3 x4 x5 x6) x7 p q, bcast_row hb2 x8 p q]
  have : (∑ k : Fin 256, vhid d1 hb1 ht x0 x1 x2 x3 x4 x5 x6 (ix2 p k) * x7 (ix2 k q))
      = ∑ k : Fin 256, hid x0 x1 x2 x3 x4 x5 (row x6) (ix2 p k) * x7 (ix2 k q) :=
    Finset.sum_congr rfl fun k _ => by rw [vhid_apply d1 hd1 hb1 ht x0 x1 x2 x3 x4 x5 x6 p k]
  rw [this]

/-! ## The host's spelling -/

/-- A host dot product read at (p, q): the plain sum. -/
theorem dg_apply {N K H : ℕ} (d : DotDims ⟨2, ![N, K]⟩ ⟨2, ![K, H]⟩ ⟨2, ![N, H]⟩) (hd : d = DotDims.plain N K H)
    (a : FVec Ideal ⟨2, ![N, K]⟩ .f32) (W : FVec Ideal ⟨2, ![K, H]⟩ .f32) (p : Fin N) (q : Fin H) :
    Host.dotGeneral d none a W (ix2 p q) = ∑ k : Fin K, a (ix2 p k) * W (ix2 k q) := by
  subst hd
  exact (Ideal.dotGeneral_apply (DotDims.plain N K H) none .single a W (ix2 p q)).trans (plain_sum a W (ix2 p q))

/-- The hidden layer as the host spells it: one product over the three arrays side by side. -/
def hhid {N : ℕ} (d1 : DotDims ⟨2, ![N, 384]⟩ ⟨2, ![384, 256]⟩ ⟨2, ![N, 256]⟩)
    (hc : Shape.Concatenates [(⟨2, ![N, 128]⟩ : Shape), ⟨2, ![N, 128]⟩, ⟨2, ![N, 128]⟩] ⟨2, ![N, 384]⟩ 1)
    (h0 : (⟨0, ![]⟩ : Shape).BroadcastsInDim ⟨2, ![N, 256]⟩ ![])
    (h1 : (⟨1, ![256]⟩ : Shape).BroadcastsInDim ⟨2, ![1, 256]⟩ ![1])
    (h2 : (⟨2, ![1, 256]⟩ : Shape).BroadcastsInDim ⟨2, ![N, 256]⟩ ![0, 1])
    (gs gd x1 : FVec Ideal ⟨2, ![N, 128]⟩ .f32) (x3 : FVec Ideal ⟨2, ![384, 256]⟩ .f32) (x4 : FVec Ideal ⟨1, ![256]⟩ .f32) :
    FVec Ideal ⟨2, ![N, 256]⟩ .f32 :=
  maximumf (addf (Host.dotGeneral d1 none
      (concatenate (⟨2, ![N, 384]⟩ : Shape) 1 [⟨⟨2, ![N, 128]⟩, gs⟩, ⟨⟨2, ![N, 128]⟩, gd⟩, ⟨⟨2, ![N, 128]⟩, x1⟩] hc) x3)
      (broadcastInDim (⟨2, ![N, 256]⟩ : Shape) ![0, 1] h2 (broadcastInDim (⟨2, ![1, 256]⟩ : Shape) ![1] h1 x4)))
    (broadcastInDim (⟨2, ![N, 256]⟩ : Shape) ![] h0 (constant (⟨0, ![]⟩ : Shape) .f32 0x00000000#32))

theorem hhid_apply {N : ℕ} (d1 : DotDims ⟨2, ![N, 384]⟩ ⟨2, ![384, 256]⟩ ⟨2, ![N, 256]⟩) (hd1 : d1 = DotDims.plain N 384 256)
    (hc : Shape.Concatenates [(⟨2, ![N, 128]⟩ : Shape), ⟨2, ![N, 128]⟩, ⟨2, ![N, 128]⟩] ⟨2, ![N, 384]⟩ 1)
    (h0 : (⟨0, ![]⟩ : Shape).BroadcastsInDim ⟨2, ![N, 256]⟩ ![])
    (h1 : (⟨1, ![256]⟩ : Shape).BroadcastsInDim ⟨2, ![1, 256]⟩ ![1])
    (h2 : (⟨2, ![1, 256]⟩ : Shape).BroadcastsInDim ⟨2, ![N, 256]⟩ ![0, 1])
    (gs gd x1 : FVec Ideal ⟨2, ![N, 128]⟩ .f32) (x3 : FVec Ideal ⟨2, ![384, 256]⟩ .f32) (x4 : FVec Ideal ⟨1, ![256]⟩ .f32)
    (Ws Wd We : Mat 128 256)
    (hWs : ∀ (a : Fin 128) (q : Fin 256), x3 (ix2 (Fin.castAdd 128 (Fin.castAdd 128 a)) q) = Ws (ix2 a q))
    (hWd : ∀ (a : Fin 128) (q : Fin 256), x3 (ix2 (Fin.castAdd 128 (Fin.natAdd 128 a)) q) = Wd (ix2 a q))
    (hWe : ∀ (a : Fin 128) (q : Fin 256), x3 (ix2 (Fin.natAdd 256 a) q) = We (ix2 a q))
    (p : Fin N) (k : Fin 256) :
    hhid d1 hc h0 h1 h2 gs gd x1 x3 x4 (ix2 p k) = hid gs gd x1 Ws Wd We (vec x4) (ix2 p k) := by
  have hm : Host.dotGeneral d1 none
        (concatenate (⟨2, ![N, 384]⟩ : Shape) 1 [⟨⟨2, ![N, 128]⟩, gs⟩, ⟨⟨2, ![N, 128]⟩, gd⟩, ⟨⟨2, ![N, 128]⟩, x1⟩] hc) x3 (ix2 p k)
      = pre3 gs gd x1 Ws Wd We p k := by
    rw [dg_apply d1 hd1 _ x3 p k, sum_three]
    unfold pre3
    simp only [beside3_left hc gs gd x1 p, beside3_mid hc gs gd x1 p, beside3_right hc gs gd x1 p, hWs, hWd, hWe]
  show max (Host.dotGeneral d1 none
        (concatenate (⟨2, ![N, 384]⟩ : Shape) 1 [⟨⟨2, ![N, 128]⟩, gs⟩, ⟨⟨2, ![N, 128]⟩, gd⟩, ⟨⟨2, ![N, 128]⟩, x1⟩] hc) x3 (ix2 p k)
      + broadcastInDim (⟨2, ![N, 256]⟩ : Shape) ![0, 1] h2 (broadcastInDim (⟨2, ![1, 256]⟩ : Shape) ![1] h1 x4) (ix2 p k)) zero
    = max (pre3 gs gd x1 Ws Wd We p k + x4 (ix1 k)) zero
  rw [hm, bcast_two h1 h2 x4 p k]

/-- The host's edge update is the edge update. -/
theorem host_upd {N : ℕ} (d1 : DotDims ⟨2, ![N, 384]⟩ ⟨2, ![384, 256]⟩ ⟨2, ![N, 256]⟩) (hd1 : d1 = DotDims.plain N 384 256)
    (d2 : DotDims ⟨2, ![N, 256]⟩ ⟨2, ![256, 128]⟩ ⟨2, ![N, 128]⟩) (hd2 : d2 = DotDims.plain N 256 128)
    (hc : Shape.Concatenates [(⟨2, ![N, 128]⟩ : Shape), ⟨2, ![N, 128]⟩, ⟨2, ![N, 128]⟩] ⟨2, ![N, 384]⟩ 1)
    (h0 : (⟨0, ![]⟩ : Shape).BroadcastsInDim ⟨2, ![N, 256]⟩ ![])
    (h1 : (⟨1, ![256]⟩ : Shape).BroadcastsInDim ⟨2, ![1, 256]⟩ ![1])
    (h2 : (⟨2, ![1, 256]⟩ : Shape).BroadcastsInDim ⟨2, ![N, 256]⟩ ![0, 1])
    (h1' : (⟨1, ![128]⟩ : Shape).BroadcastsInDim ⟨2, ![1, 128]⟩ ![1])
    (h2' : (⟨2, ![1, 128]⟩ : Shape).BroadcastsInDim ⟨2, ![N, 128]⟩ ![0, 1])
    (gs gd x1 : FVec Ideal ⟨2, ![N, 128]⟩ .f32) (x3 : FVec Ideal ⟨2, ![384, 256]⟩ .f32) (x4 : FVec Ideal ⟨1, ![256]⟩ .f32)
    (x5 : FVec Ideal ⟨2, ![256, 128]⟩ .f32) (x6 : FVec Ideal ⟨1, ![128]⟩ .f32)
    (Ws Wd We : Mat 128 256)
    (hWs : ∀ (a : Fin 128) (q : Fin 256), x3 (ix2 (Fin.castAdd 128 (Fin.castAdd 128 a)) q) = Ws (ix2 a q))
    (hWd : ∀ (a : Fin 128) (q : Fin 256), x3 (ix2 (Fin.castAdd 128 (Fin.natAdd 128 a)) q) = Wd (ix2 a q))
    (hWe : ∀ (a : Fin 128) (q : Fin 256), x3 (ix2 (Fin.natAdd 256 a) q) = We (ix2 a q)) :
    addf x1 (addf (Host.dotGeneral d2 none (hhid d1 hc h0 h1 h2 gs gd x1 x3 x4) x5)
        (broadcastInDim (⟨2, ![N, 128]⟩ : Shape) ![0, 1] h2' (broadcastInDim (⟨2, ![1, 128]⟩ : Shape) ![1] h1' x6)))
      = upd gs gd x1 Ws Wd We (vec x4) x5 (vec x6) := by
  funext i
  obtain ⟨p, q, rfl⟩ : ∃ (p : Fin N) (q : Fin 128), i = ix2 p q := ⟨i 0, i 1, eq_ix2 i⟩
  show x1 (ix2 p q) + (Host.dotGeneral d2 none (hhid d1 hc h0 h1 h2 gs gd x1 x3 x4) x5 (ix2 p q)
        + broadcastInDim (⟨2, ![N, 128]⟩ : Shape) ![0, 1] h2' (broadcastInDim (⟨2, ![1, 128]⟩ : Shape) ![1] h1' x6) (ix2 p q))
    = x1 (ix2 p q) + ((∑ k : Fin 256, hid gs gd x1 Ws Wd We (vec x4) (ix2 p k) * x5 (ix2 k q)) + x6 (ix1 q))
  rw [dg_apply d2 hd2 (hhid d1 hc h0 h1 h2 gs gd x1 x3 x4) x5 p q, bcast_two h1' h2' x6 p q]
  have : (∑ k : Fin 256, hhid d1 hc h0 h1 h2 gs gd x1 x3 x4 (ix2 p k) * x5 (ix2 k q))
      = ∑ k : Fin 256, hid gs gd x1 Ws Wd We (vec x4) (ix2 p k) * x5 (ix2 k q) :=
    Finset.sum_congr rfl fun k _ => by
      rw [hhid_apply d1 hd1 hc h0 h1 h2 gs gd x1 x3 x4 Ws Wd We hWs hWd hWe p k]
  rw [this]

end Cert.EdgeMlp

end
-- ==== Proof.IndexRange.lean ====
/-
  Node indices.  A 32-bit word is a node index when, read as a signed integer, it is at least 0 and below 50000
  (the number of nodes).  For such a word the numpy-style wrap of negative indices  (w < 0 ? w + 50000 : w)  is the
  word itself, and the range test  0 <= w and w <= 49999  that guards a fill-mode gather is passed.
  Also: a reduction by "and" of an array of one-bit words that are all 1, from the constant 1, is 1.
-/
import Idealize.ShloMosaic.PureOps
import Idealize.ShloMosaic.Lib.Affine
import Idealize.ShloMosaic.Lib.ReduceAll
import Idealize.ShloMosaic.Lib.ValueIdx

namespace Cert.EdgeMlp

open Idealize.ShloMosaic Idealize.ShloMosaic.ValueIdx

/-- A node index: at least 0 and below 50000 as a signed integer. -/
def NodeIdx (w : BitVec 32) : Prop := IntOp.cmpi .sge w 0#32 = 1#1 ∧ IntOp.cmpi .slt w 50000#32 = 1#1

/-- A node index is not negative. -/
theorem NodeIdx.not_neg {w : BitVec 32} (h : NodeIdx w) : IntOp.cmpi .slt w 0#32 = 0#1 := by
  refine eq_zero_of_ne_one fun h' => ?_
  have a := IntOp.cmpi_sge.1 h.1
  have b := IntOp.cmpi_slt.1 h'
  have z : (0#32 : BitVec 32).toInt = 0 := by decide
  omega

/-- The wrap of negative indices leaves a node index as it is. -/
theorem NodeIdx.wrap {w : BitVec 32} (h : NodeIdx w) :
    Scalar.select (IntOp.cmpi .slt w 0#32) (IntOp.addi w 50000#32) w = w := by
  rw [h.not_neg]; exact select_zero _ _

/-- A node index is at most the last row's. -/
theorem NodeIdx.le_last {w : BitVec 32} (h : NodeIdx w) : IntOp.cmpi .sle w 49999#32 = 1#1 := by
  have b := IntOp.cmpi_slt.1 h.2
  refine IntOp.cmpi_sle.2 ?_
  have e1 : (50000#32 : BitVec 32).toInt = 50000 := by decide
  have e2 : (49999#32 : BitVec 32).toInt = 49999 := by decide
  omega

/-- So the range test on the wrapped index is passed. -/
theorem NodeIdx.test {w : BitVec 32} (h : NodeIdx w) :
    IntOp.andi (IntOp.cmpi .sge w 0#32) (IntOp.cmpi .sle w 49999#32) = 1#1 :=
  IntOp.andi_eq_one.2 ⟨h.1, h.le_last⟩

/-- A left fold by "and" from 1 over one-bit words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a List.mem_cons_self]; decide
    rw [List.foldl_cons, e]
    exact foldl_andi_ones f l fun n hn => h n (List.mem_cons_of_mem _ hn)

/-- A reduction by "and", from an initial array of 1s, of an array of 1s is 1 everywhere. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun n _ => hx n

end Cert.EdgeMlp
-- ==== Proof.PreRange.lean ====
/-
  The precondition, read back: where the printed predicate is all ones, every entry of the edge-index array is a
  node index (at least 0 and below 50000, read signed).  The predicate ends in a conjunction whose last conjunct is
  the "all" (a reduction by "and" from 1) of  idx >= 0 and idx < 50000 , entry by entry.
-/
import proofs.«422206_j15040975470645_1_alg».proof.Pre_finite_inputs
import proofs.«422206_j15040975470645_1_alg».proof.Proof.Gen.Pre_finite_inputs
import Idealize.ShloMosaic.Lib.ReduceAll
import Idealize.ShloMosaic.Lib.ValueIdx
import proofs.«422206_j15040975470645_1_alg».proof.Proof.IndexRange

namespace Cert.Pre_finite_inputs.Range

open Cert.Pre_finite_inputs Idealize.ShloMosaic Idealize.ShloMosaic.ValueIdx

instance : Subsingleton S_.Idx := ⟨fun a b => funext fun d => d.elim0⟩

/-- Under the precondition every entry of the edge-index array is a node index. -/
theorem nodeIdx_of_pre [Facts] {F : FTy → Type} [FloatOps F] (a0 : FVec F S50000x128 .f32) (a1 : FVec F S500000x128 .f32)
    (a2 : IVec S2x500000 32) (a3 : FVec F S384x256 .f32) (a4 : FVec F S256 .f32) (a5 : FVec F S256x128 .f32)
    (a6 : FVec F S128 .f32) (h : fn (F := F) a0 a1 a2 a3 a4 a5 a6 = fun _ => 1#1) (i : S2x500000.Idx) :
    Cert.EdgeMlp.NodeIdx (a2 i) := by
  have h0 := congrFun h ix0
  dsimp only [fn, fn_part1, fn_part2] at h0
  have h1 := (IntOp.andi_eq_one.1 h0).2
  have h2 := Host.reduce_andi_all _ _ _ _ _ h1 i
  exact IntOp.andi_eq_one.1 h2

end Cert.Pre_finite_inputs.Range
-- ==== Proof.KernelEntry.lean ====
/-
  What the region finds in each operand's array (the host operations before it, read back).

  The two gathered operands are fill-mode row gathers of the node table: the index is wrapped if negative, the rows are
  gathered at the (clamped) wrapped index, and a row whose wrapped index fails the test  0 <= w <= 49999  is replaced
  by a fill word.  Where every index is a node index the wrap is the identity and the test is passed on every row, so the
  guarded gather IS the plain gather (guarded_eq).  The three weight operands are the three 128-row bands of W1, the two
  bias operands the bias vectors reshaped to one row; the edge array and W2 are as launched.
-/
import proofs.«422206_j15040975470645_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal
import proofs.«422206_j15040975470645_1_alg».proof.Proof.IndexRange

set_option maxRecDepth 65536

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx
open Cert.EdgeMlp (NodeIdx reduce_andi_ones)

/-! ## The fill-mode gather -/

/-- Row 0 of the edge-index array (the source nodes), as a vector of words. -/
abbrev srcIdx (x2 : IVec S2x500000 32) : IVec S500000 32 :=
  shapeCast S500000 (extractStridedSlice S1x500000 ![0, 0] x2 slices_S2x500000_S1x500000_0_0) shapeCasts_S1x500000_S500000
/-- Row 1 of the edge-index array (the destination nodes). -/
abbrev dstIdx (x2 : IVec S2x500000 32) : IVec S500000 32 :=
  shapeCast S500000 (extractStridedSlice S1x500000 ![1, 0] x2 slices_S2x500000_S1x500000_1_0) shapeCasts_S1x500000_S500000

/-- The index column the gather is given: negative indices wrapped by the number of nodes. -/
def wrapped (W : IVec S500000 32) : IVec S500000x1 32 :=
  broadcastInDim S500000x1 ![0] bcast_S500000_S500000x1_0
    (select (cmpi .slt W (broadcastInDim S500000 ![] bcast_S_S500000 (constantI S_ 32 0#32)))
      (addi W (broadcastInDim S500000 ![] bcast_S_S500000 (constantI S_ 32 50000#32))) W)

/-- The rows of the node table at the wrapped indices. -/
def taken (x0 : FVec Ideal S50000x128 .f32) (W : IVec S500000 32) : FVec Ideal S500000x128 .f32 :=
  Host.gather gather_S50000x128_S500000x1_S500000x128_1_0_n_n_0_1_1128 x0 (wrapped W)

/-- The range test of the fill mode, row by row, broadcast along the row. -/
def inRange (W : IVec S500000 32) : IVec S500000x128 1 :=
  broadcastInDim S500000x128 ![0] bcast_S500000_S500000x128_0
    (Host.reduce IntOp.andi
      (andi (cmpi .sge (wrapped W) (broadcastInDim S500000x1 ![] bcast_S_S500000x1 (constantI S_ 32 0#32)))
        (cmpi .sle (wrapped W) (broadcastInDim S500000x1 ![0, 1] bcast_S1x1_S500000x1_0_1
          (broadcastInDim S1x1 ![1] bcast_S1_S1x1_1 (constantI S1 32 49999#32)))))
      (constantI S_ 1 1#1) reducesTo_S500000x1_S500000_d1 h_S_)

/-- The fill-mode gather: the gathered row where the test is passed, the fill word elsewhere. -/
def guarded (x0 : FVec Ideal S50000x128 .f32) (W : IVec S500000 32) : FVec Ideal S500000x128 .f32 :=
  select (inRange W) (taken x0 W) (broadcastInDim S500000x128 ![] bcast_S_S500000x128 (constant S_ .f32 0x7FC00000#32))

/-- At node indices the wrap is the identity. -/
theorem wrapped_apply (W : IVec S500000 32) (hW : ∀ e, NodeIdx (W e)) (i : S500000x1.Idx) :
    wrapped W i = W (ix1 ⟨(i 0).val, idx2_lt0 i⟩) := by
  unfold wrapped
  refine (broadcastInDim_apply ![0] bcast_S500000_S500000x1_0 _ i (ix1 ⟨(i 0).val, idx2_lt0 i⟩)
    (fun a => match a with | ⟨0, _⟩ => rfl)).trans ?_
  exact (hW _).wrap

/-- At node indices the test is passed everywhere. -/
theorem inRange_one (W : IVec S500000 32) (hW : ∀ e, NodeIdx (W e)) (j : S500000x128.Idx) : inRange W j = 1#1 := by
  unfold inRange
  refine (broadcastInDim_apply ![0] bcast_S500000_S500000x128_0 _ j (ix1 ⟨(j 0).val, idx2_lt0 j⟩)
    (fun a => match a with | ⟨0, _⟩ => rfl)).trans ?_
  refine reduce_andi_ones _ _ _ _ (fun _ => rfl) (fun i => ?_) _
  show IntOp.andi (IntOp.cmpi .sge (wrapped W i) 0#32) (IntOp.cmpi .sle (wrapped W i) 49999#32) = 1#1
  rw [wrapped_apply W hW i]
  exact (hW _).test

/-- So at node indices the fill-mode gather is the plain gather. -/
theorem guarded_eq (x0 : FVec Ideal S50000x128 .f32) (W : IVec S500000 32) (hW : ∀ e, NodeIdx (W e)) :
    guarded x0 W = taken x0 W := by
  funext j
  unfold guarded
  rw [select_apply, inRange_one W hW j]
  exact select_one _ _

/-- A row of the edge-index array, as a vector, holds that row's entries. -/
theorem srcIdx_apply (x2 : IVec S2x500000 32) (e : S500000.Idx) :
    srcIdx x2 e = x2 (ix2 (0 : Fin 2) ⟨(e 0).val, (show (e 0).val < 500000 from (e 0).isLt)⟩) :=
  (shapeCast_apply _ shapeCasts_S1x500000_S500000 e (ix2 (0 : Fin 1) ⟨(e 0).val, (show (e 0).val < 500000 from (e 0).isLt)⟩) (by
    rw [Shape.rowMajor_val_two, Shape.rowMajor_val_one]; show 0 * 500000 + (e 0).val = (e 0).val; omega)).trans
    (extractStridedSlice_apply _ x2 slices_S2x500000_S1x500000_0_0 _ (ix2 (0 : Fin 2) ⟨(e 0).val, (show (e 0).val < 500000 from (e 0).isLt)⟩)
      (fun a => match a with | ⟨0, _⟩ => rfl | ⟨1, _⟩ => (Nat.zero_add _).symm))

theorem dstIdx_apply (x2 : IVec S2x500000 32) (e : S500000.Idx) :
    dstIdx x2 e = x2 (ix2 (1 : Fin 2) ⟨(e 0).val, (show (e 0).val < 500000 from (e 0).isLt)⟩) :=
  (shapeCast_apply _ shapeCasts_S1x500000_S500000 e (ix2 (0 : Fin 1) ⟨(e 0).val, (show (e 0).val < 500000 from (e 0).isLt)⟩) (by
    rw [Shape.rowMajor_val_two, Shape.rowMajor_val_one]; show 0 * 500000 + (e 0).val = (e 0).val; omega)).trans
    (extractStridedSlice_apply _ x2 slices_S2x500000_S1x500000_1_0 _ (ix2 (1 : Fin 2) ⟨(e 0).val, (show (e 0).val < 500000 from (e 0).isLt)⟩)
      (fun a => match a with | ⟨0, _⟩ => rfl | ⟨1, _⟩ => (Nat.zero_add _).symm))

/-! ## The arrays at region entry -/

variable (m : (ℓ : Loc nD τ sig) → Buf (Elt Ideal) ℓ)

/-- The argument arrays as launched, at their literal types. -/
abbrev aNode (c : Dev nD) : S50000x128.Idx → EReal := m ((c : Thread nD τ).loc main_arg0)
abbrev aEdge (c : Dev nD) : S500000x128.Idx → EReal := m ((c : Thread nD τ).loc main_arg1)
abbrev aIdx (c : Dev nD) : IVec S2x500000 32 := m ((c : Thread nD τ).loc main_arg2)
abbrev aW1 (c : Dev nD) : S384x256.Idx → EReal := m ((c : Thread nD τ).loc main_arg3)
abbrev aB1 (c : Dev nD) : S256.Idx → EReal := m ((c : Thread nD τ).loc main_arg4)
abbrev aW2 (c : Dev nD) : S256x128.Idx → EReal := m ((c : Thread nD τ).loc main_arg5)
abbrev aB2 (c : Dev nD) : S128.Idx → EReal := m ((c : Thread nD τ).loc main_arg6)

set_option maxHeartbeats 4000000 in
theorem V_src (c : Dev nD) :
    (V m c main_v4 : S500000x128.Idx → EReal) = guarded (aNode m c) (srcIdx (aIdx m c)) := by
  dsimp only [V]
  simp only [hostOps0, hostOps0_1, hostOps0_2, hostOps0_3, List.flatten_cons, List.flatten_nil, List.append_nil,
    List.cons_append, List.nil_append]
  after_results_simp
  unfold guarded inRange taken wrapped
  dsimp only [TRef.ofBuf, TRef.toBuf, cast_eq]
  rfl

set_option maxHeartbeats 4000000 in
theorem V_dst (c : Dev nD) :
    (V m c main_v5 : S500000x128.Idx → EReal) = guarded (aNode m c) (dstIdx (aIdx m c)) := by
  dsimp only [V]
  simp only [hostOps0, hostOps0_1, hostOps0_2, hostOps0_3, List.flatten_cons, List.flatten_nil, List.append_nil,
    List.cons_append, List.nil_append]
  after_results_simp
  unfold guarded inRange taken wrapped
  dsimp only [TRef.ofBuf, TRef.toBuf, cast_eq]
  rfl

set_option maxHeartbeats 4000000 in
theorem V_Ws (c : Dev nD) :
    (V m c main_v6 : S128x256.Idx → EReal) = extractStridedSlice S128x256 ![0, 0] (aW1 m c) slices_S384x256_S128x256_0_0 := by
  dsimp only [V]
  simp only [hostOps0, hostOps0_1, hostOps0_2, hostOps0_3, List.flatten_cons, List.flatten_nil, List.append_nil,
    List.cons_append, List.nil_append]
  after_results_simp <;> rfl

set_option maxHeartbeats 4000000 in
theorem V_Wd (c : Dev nD) :
    (V m c main_v7 : S128x256.Idx → EReal) = extractStridedSlice S128x256 ![128, 0] (aW1 m c) slices_S384x256_S128x256_128_0 := by
  dsimp only [V]
  simp only [hostOps0, hostOps0_1, hostOps0_2, hostOps0_3, List.flatten_cons, List.flatten_nil, List.append_nil,
    List.cons_append, List.nil_append]
  after_results_simp <;> rfl

set_option maxHeartbeats 4000000 in
theorem V_We (c : Dev nD) :
    (V m c main_v8 : S128x256.Idx → EReal) = extractStridedSlice S128x256 ![256, 0] (aW1 m c) slices_S384x256_S128x256_256_0 := by
  dsimp only [V]
  simp only [hostOps0, hostOps0_1, hostOps0_2, hostOps0_3, List.flatten_cons, List.flatten_nil, List.append_nil,
    List.cons_append, List.nil_append]
  after_results_simp <;> rfl

set_option maxHeartbeats 4000000 in
theorem V_b1 (c : Dev nD) :
    (V m c main_v9 : S1x256.Idx → EReal) = shapeCast S1x256 (aB1 m c) shapeCasts_S256_S1x256 := by
  dsimp only [V]
  simp only [hostOps0, hostOps0_1, hostOps0_2, hostOps0_3, List.flatten_cons, List.flatten_nil, List.append_nil,
    List.cons_append, List.nil_append]
  after_results_simp <;> rfl

set_option maxHeartbeats 4000000 in
theorem V_b2 (c : Dev nD) :
    (V m c main_v10 : S1x128.Idx → EReal) = shapeCast S1x128 (aB2 m c) shapeCasts_S128_S1x128 := by
  dsimp only [V]
  simp only [hostOps0, hostOps0_1, hostOps0_2, hostOps0_3, List.flatten_cons, List.flatten_nil, List.append_nil,
    List.cons_append, List.nil_append]
  after_results_simp <;> rfl

end Cert.KernelIdeal.Hand

end
-- ==== Proof.KernelValue.lean ====
/-
  The kernel's result array as ONE function of the arrays the region finds.

  Grid point t stages rows 4000 t ... 4000 t + 3999 of the source rows, the destination rows and the edge rows, and the
  whole of the three weight bands, W2 and the two one-row biases; its body computes the edge update of those 4000 rows
  (the vector dialect's spelling) and writes it back to the same rows of the result.  The edge update reads only the row
  it is asked for, so block t of the result is block t of the edge update of the WHOLE arrays; the 125 blocks tile the
  500000 rows, so the result array is that function everywhere.
-/
import proofs.«422206_j15040975470645_1_alg».proof.Proof.Gen.KernelIdeal.Frame
import proofs.«422206_j15040975470645_1_alg».proof.Proof.Gen.KernelIdeal.Value
import Idealize.ShloMosaic.Lib.Pipeline.Value
import Idealize.ShloMosaic.Lib.ValueIdx
import Idealize.ShloMosaic.PureOps.Ideal
import proofs.«422206_j15040975470645_1_alg».proof.Proof.LibMlp
import proofs.«422206_j15040975470645_1_alg».proof.Proof.EdgeSpec
import proofs.«422206_j15040975470645_1_alg».proof.Proof.EdgeSpell

set_option maxRecDepth 65536

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.EdgeMlp (upd upd_row vec_upd vhid)
open Cert.Mlp (row)

variable (m : (ℓ : Loc nD τ sig) → Buf (Elt Ideal) ℓ) (ρ : Dev nD → PrngReg)

theorem hz : (![0, 0] : Fin 2 → Nat) = fun _ => 0 := funext fun a => by fin_cases a <;> rfl

/-! ## The body's result is the edge update of its blocks -/

theorem pay_eq (x0 x1 x2 : Vec Ideal S4000x128 .f32) (x3 x4 x5 : Vec Ideal S128x256 .f32) (x6 : Vec Ideal S1x256 .f32)
    (x7 : Vec Ideal S256x128 .f32) (x8 : Vec Ideal S1x128 .f32) :
    k0_pay1 (k0_pay2 x0 x1 x2 x3 x4 x5 x6 x7 x8) x2 = upd x0 x1 x2 x3 x4 x5 (row x6) x7 (row x8) := by
  unfold k0_pay1 k0_pay2
  simp only [shapeCast_self]
  exact vec_upd dot_S4000x128_S128x256_S4000x256_1_0_0_1_n_n rfl dot_S4000x256_S256x128_S4000x128_1_0_0_1_n_n rfl
    broadcasts_S1x256_S4000x256 broadcasts_S1x128_S4000x128 bitsLt_bf16_f32 x0 x1 x2 x3 x4 x5 x6 x7 x8

/-! ## The arrays the region finds, and each window's block at a point, at their literal types -/

abbrev arrS (c : Dev nD) : S500000x128.Idx → EReal := V m c main_v4
abbrev arrD (c : Dev nD) : S500000x128.Idx → EReal := V m c main_v5
abbrev arrE (c : Dev nD) : S500000x128.Idx → EReal := V m c main_arg1
abbrev arrWs (c : Dev nD) : S128x256.Idx → EReal := V m c main_v6
abbrev arrWd (c : Dev nD) : S128x256.Idx → EReal := V m c main_v7
abbrev arrWe (c : Dev nD) : S128x256.Idx → EReal := V m c main_v8
abbrev arrB1 (c : Dev nD) : S1x256.Idx → EReal := V m c main_v9
abbrev arrW2 (c : Dev nD) : S256x128.Idx → EReal := V m c main_arg5
abbrev arrB2 (c : Dev nD) : S1x128.Idx → EReal := V m c main_v10

abbrev blkS (c : Dev nD) (t : Fin cfg0.N) : Vec Ideal S4000x128 .f32 := iblk m c 0 t
abbrev blkD (c : Dev nD) (t : Fin cfg0.N) : Vec Ideal S4000x128 .f32 := iblk m c 1 t
abbrev blkE (c : Dev nD) (t : Fin cfg0.N) : Vec Ideal S4000x128 .f32 := iblk m c 2 t
abbrev blkWs (c : Dev nD) (t : Fin cfg0.N) : Vec Ideal S128x256 .f32 := iblk m c 3 t
abbrev blkWd (c : Dev nD) (t : Fin cfg0.N) : Vec Ideal S128x256 .f32 := iblk m c 4 t
abbrev blkWe (c : Dev nD) (t : Fin cfg0.N) : Vec Ideal S128x256 .f32 := iblk m c 5 t
abbrev blkB1 (c : Dev nD) (t : Fin cfg0.N) : Vec Ideal S1x256 .f32 := iblk m c 6 t
abbrev blkW2 (c : Dev nD) (t : Fin cfg0.N) : Vec Ideal S256x128 .f32 := iblk m c 7 t
abbrev blkB2 (c : Dev nD) (t : Fin cfg0.N) : Vec Ideal S1x128 .f32 := iblk m c 8 t

/-- The printed index maps, decided over the 125 points: the row windows and the result move one block a point, the
    others stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row p of a point's block is row 4000 t + p of the array. -/
theorem row_lt (t : Fin cfg0.N) (p : Fin 4000) : 4000 * t.val + p.val < 500000 := by
  have h : t.val < 125 := Nat.lt_of_lt_of_eq t.isLt N_0
  have := p.isLt; omega

theorem blkS_apply (c : Dev nD) (t : Fin cfg0.N) (p : Fin 4000) (q : Fin 128) :
    blkS m c t (ix2 p q) = arrS m c (ix2 ⟨4000 * t.val + p.val, row_lt t p⟩ q) := by
  obtain ⟨⟨h0, h1⟩, -⟩ := idx_facts t
  unfold blkS iblk
  rw [View.read_apply]
  show V m c main_v4 _ = V m c main_v4 _
  congr 1
  funext a
  apply Fin.ext
  match a with
  | ⟨0, _⟩ => show win0_0.index t (0 : Fin 2) * 4000 + 1 * p.val = 4000 * t.val + p.val; rw [h0]; omega
  | ⟨1, _⟩ => show win0_0.index t (1 : Fin 2) * 128 + 1 * q.val = q.val; rw [h1]; omega

theorem blkD_apply (c : Dev nD) (t : Fin cfg0.N) (p : Fin 4000) (q : Fin 128) :
    blkD m c t (ix2 p q) = arrD m c (ix2 ⟨4000 * t.val + p.val, row_lt t p⟩ q) := by
  obtain ⟨-, ⟨h0, h1⟩, -⟩ := idx_facts t
  unfold blkD iblk
  rw [View.read_apply]
  show V m c main_v5 _ = V m c main_v5 _
  congr 1
  funext a
  apply Fin.ext
  match a with
  | ⟨0, _⟩ => show win0_1.index t (0 : Fin 2) * 4000 + 1 * p.val = 4000 * t.val + p.val; rw [h0]; omega
  | ⟨1, _⟩ => show win0_1.index t (1 : Fin 2) * 128 + 1 * q.val = q.val; rw [h1]; omega

theorem blkE_apply (c : Dev nD) (t : Fin cfg0.N) (p : Fin 4000) (q : Fin 128) :
    blkE m c t (ix2 p q) = arrE m c (ix2 ⟨4000 * t.val + p.val, row_lt t p⟩ q) := by
  obtain ⟨-, -, ⟨h0, h1⟩, -⟩ := idx_facts t
  unfold blkE iblk
  rw [View.read_apply]
  show V m c main_arg1 _ = V m c main_arg1 _
  congr 1
  funext a
  apply Fin.ext
  match a with
  | ⟨0, _⟩ => show win0_2.index t (0 : Fin 2) * 4000 + 1 * p.val = 4000 * t.val + p.val; rw [h0]; omega
  | ⟨1, _⟩ => show win0_2.index t (1 : Fin 2) * 128 + 1 * q.val = q.val; rw [h1]; omega

/-- A window that stays at block (0, 0) of an array of the block's own shape stages the whole array. -/
theorem blkWs_eq (c : Dev nD) (t : Fin cfg0.N) : blkWs m c t = arrWs m c := by
  obtain ⟨-, -, -, ⟨h0, h1⟩, -⟩ := idx_facts t
  funext y
  unfold blkWs iblk
  rw [View.read_apply]
  show V m c main_v6 _ = V m c main_v6 y
  congr 1
  funext a
  apply Fin.ext
  match a with
  | ⟨0, _⟩ => show win0_3.index t (0 : Fin 2) * 128 + 1 * (y 0).val = (y 0).val; rw [h0]; omega
  | ⟨1, _⟩ => show win0_3.index t (1 : Fin 2) * 256 + 1 * (y 1).val = (y 1).val; rw [h1]; omega

theorem blkWd_eq (c : Dev nD) (t : Fin cfg0.N) : blkWd m c t = arrWd m c := by
  obtain ⟨-, -, -, -, ⟨h0, h1⟩, -⟩ := idx_facts t
  funext y
  unfold blkWd iblk
  rw [View.read_apply]
  show V m c main_v7 _ = V m c main_v7 y
  congr 1
  funext a
  apply Fin.ext
  match a with
  | ⟨0, _⟩ => show win0_4.index t (0 : Fin 2) * 128 + 1 * (y 0).val = (y 0).val; rw [h0]; omega
  | ⟨1, _⟩ => show win0_4.index t (1 : Fin 2) * 256 + 1 * (y 1).val = (y 1).val; rw [h1]; omega

theorem blkWe_eq (c : Dev nD) (t : Fin cfg0.N) : blkWe m c t = arrWe m c := by
  obtain ⟨-, -, -, -, -, ⟨h0, h1⟩, -⟩ := idx_facts t
  funext y
  unfold blkWe iblk
  rw [View.read_apply]
  show V m c main_v8 _ = V m c main_v8 y
  congr 1
  funext a
  apply Fin.ext
  match a with
  | ⟨0, _⟩ => show win0_5.index t (0 : Fin 2) * 128 + 1 * (y 0).val = (y 0).val; rw [h0]; omega
  | ⟨1, _⟩ => show win0_5.index t (1 : Fin 2) * 256 + 1 * (y 1).val = (y 1).val; rw [h1]; omega

theorem blkB1_eq (c : Dev nD) (t : Fin cfg0.N) : blkB1 m c t = arrB1 m c := by
  obtain ⟨-, -, -, -, -, -, ⟨h0, h1⟩, -⟩ := idx_facts t
  funext y
  unfold blkB1 iblk
  rw [View.read_apply]
  show V m c main_v9 _ = V m c main_v9 y
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 256 + 1 * (y 1).val = (y 1).val; rw [h1]; omega

theorem blkW2_eq (c : Dev nD) (t : Fin cfg0.N) : blkW2 m c t = arrW2 m c := by
  obtain ⟨-, -, -, -, -, -, -, ⟨h0, h1⟩, -⟩ := idx_facts t
  funext y
  unfold blkW2 iblk
  rw [View.read_apply]
  show V m c main_arg5 _ = V m c main_arg5 y
  congr 1
  funext a
  apply Fin.ext
  match a with
  | ⟨0, _⟩ => show win0_7.index t (0 : Fin 2) * 256 + 1 * (y 0).val = (y 0).val; rw [h0]; omega
  | ⟨1, _⟩ => show win0_7.index t (1 : Fin 2) * 128 + 1 * (y 1).val = (y 1).val; rw [h1]; omega

theorem blkB2_eq (c : Dev nD) (t : Fin cfg0.N) : blkB2 m c t = arrB2 m c := by
  obtain ⟨-, -, -, -, -, -, -, -, ⟨h0, h1⟩, -⟩ := idx_facts t
  funext y
  unfold blkB2 iblk
  rw [View.read_apply]
  show V m c main_v10 _ = V m c main_v10 y
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 128 + 1 * (y 1).val = (y 1).val; rw [h1]; omega

/-! ## From blocks to the array -/

/-- The edge update of the whole arrays the region finds. -/
def whole (c : Dev nD) : S500000x128.Idx → EReal :=
  upd (arrS m c) (arrD m c) (arrE m c) (arrWs m c) (arrWd m c) (arrWe m c) (row (arrB1 m c)) (arrW2 m c) (row (arrB2 m c))

/-- What point t writes back is block t of the edge update of the whole arrays. -/
theorem flushed_eq (c : Dev nD) (t : Fin cfg0.N) :
    (dats m 0 c).flushed 9 t = ((cfg0.win 9).blk t).view.read (Elt Ideal) (whole m c) := by
  rw [Cert.KernelIdeal.Value.flushed9]
  unfold out0_9
  rw [View.canon_unit_zero hz]
  simp only [View.ld_unit_zero (S := S4000x128) hz, View.ld_unit_zero (S := S128x256) hz, View.ld_unit_zero (S := S1x256) hz,
    View.ld_unit_zero (S := S256x128) hz, View.ld_unit_zero (S := S1x128) hz]
  obtain ⟨-, -, -, -, -, -, -, -, -, ⟨h0, h1⟩⟩ := idx_facts t
  funext y
  obtain ⟨p, q, rfl⟩ : ∃ (p : Fin 4000) (q : Fin 128), y = ix2 p q := ⟨y 0, y 1, eq_ix2 y⟩
  show k0_pay1 (k0_pay2 (blkS m c t) (blkD m c t) (blkE m c t) (blkWs m c t) (blkWd m c t) (blkWe m c t) (blkB1 m c t)
      (blkW2 m c t) (blkB2 m c t)) (blkE m c t) (ix2 p q) = whole m c (((cfg0.win 9).blk t).view.emb (ix2 p q))
  have he : ((cfg0.win 9).blk t).view.emb (ix2 p q) = ix2 ⟨4000 * t.val + p.val, row_lt t p⟩ q := by
    funext a
    apply Fin.ext
    match a with
    | ⟨0, _⟩ => show win0_9.index t (0 : Fin 2) * 4000 + 1 * p.val = 4000 * t.val + p.val; rw [h0]; omega
    | ⟨1, _⟩ => show win0_9.index t (1 : Fin 2) * 128 + 1 * q.val = q.val; rw [h1]; omega
  rw [he, pay_eq, blkWs_eq m c t, blkWd_eq m c t, blkWe_eq m c t, blkB1_eq m c t, blkW2_eq m c t, blkB2_eq m c t]
  exact upd_row (blkS m c t) (blkD m c t) (blkE m c t) (arrS m c) (arrD m c) (arrE m c) (arrWs m c) (arrWd m c) (arrWe m c)
    (row (arrB1 m c)) (arrW2 m c) (row (arrB2 m c)) p ⟨4000 * t.val + p.val, row_lt t p⟩ q
    (fun a => blkS_apply m c t p a) (fun a => blkD_apply m c t p a) (fun a => blkE_apply m c t p a)

/-- An index of the result array is in point t's block iff each coordinate is in the block's range on its axis. -/
theorem mem_blk (t : Fin cfg0.N) (i : S500000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v11).slice (win0_9.rect t)).set ↔ _
  rw [View.set_slice_whole, Rect.mem_set_unit]
  exact Iff.rfl

/-- The result array after the run: the edge update of the whole arrays (row r lies in the block of point r / 4000). -/
theorem final (c : Dev nD) : (dats m 0 c).arrAt 9 cfg0.N = whole m c :=
  (dats m 0 c).arrAt_eq_of_cover 9 (whole m c) (fun t _ => flushed_eq m c t) fun i => by
    have hi0 : (i 0).val < 500000 := (i 0).isLt
    have hi1 : (i 1).val < 128 := (i 1).isLt
    have hN : cfg0.N = 125 := N_0
    let t : Fin cfg0.N := ⟨(i 0).val / 4000, by rw [hN]; omega⟩
    obtain ⟨-, -, -, -, -, -, -, -, -, ⟨h0, h1⟩⟩ := idx_facts t
    refine ⟨t, flush0_9 t, ?_⟩
    rw [mem_blk]
    intro a
    match a with
    | ⟨0, _⟩ =>
      show win0_9.index t (0 : Fin 2) * 4000 ≤ (i 0).val ∧ (i 0).val < win0_9.index t (0 : Fin 2) * 4000 + 4000
      rw [h0]; show (i 0).val / 4000 * 4000 ≤ (i 0).val ∧ (i 0).val < (i 0).val / 4000 * 4000 + 4000; omega
    | ⟨1, _⟩ =>
      show win0_9.index t (1 : Fin 2) * 128 ≤ (i 1).val ∧ (i 1).val < win0_9.index t (1 : Fin 2) * 128 + 128
      rw [h1]; omega

/-- The run, read: the result array at the edge update of the whole arrays the region finds, the arguments unchanged. -/
theorem run : θ_run defs (onTc (τ := τ) (main (F := Ideal))) ⟨m, fun _ => 0, ρ⟩ fun r => ∀ c : Dev nD,
      r.2.mem ((c : Thread nD τ).loc main_v11) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩)
    (Cert.KernelIdeal.Value.run_blocks m ρ)

end Cert.KernelIdeal.Hand

end
-- ==== Proof.Bridge.lean ====
/-
  The kernel's result as ONE function of the seven arguments, under the index range.

  The arrays the region finds are read back from the arguments: the two gathered operands are fill-mode gathers, which
  at node indices are the plain gathers of the node table at the (wrapped) source and destination indices; the three
  weight operands are the three bands of W1; the one-row biases read back as the bias vectors.  So the result array is
  the edge update of the gathered source rows, the gathered destination rows and the edge rows.
-/
import proofs.«422206_j15040975470645_1_alg».proof.Proof.Gen.KernelIdeal.Frame
import proofs.«422206_j15040975470645_1_alg».proof.Proof.Gen.KernelIdeal.Value
import Idealize.ShloMosaic.Lib.Pipeline.Value
import Idealize.ShloMosaic.Lib.ValueIdx
import Idealize.ShloMosaic.PureOps.Ideal
import proofs.«422206_j15040975470645_1_alg».proof.Proof.LibMlp
import proofs.«422206_j15040975470645_1_alg».proof.Proof.EdgeSpec
import proofs.«422206_j15040975470645_1_alg».proof.Proof.IndexRange
import proofs.«422206_j15040975470645_1_alg».proof.Proof.KernelEntry
import proofs.«422206_j15040975470645_1_alg».proof.Proof.KernelValue

set_option maxRecDepth 65536

noncomputable section

namespace Cert.KernelIdeal.Hand

open Cert.KernelIdeal Cert.KernelIdeal.Gen Idealize.ShloMosaic Idealize.ShloMosaic.TcCoe Idealize.SL.Sem
open Idealize.ShloMosaic.ValueIdx
open Cert.EdgeMlp (upd bandS bandD bandE NodeIdx slice_bandS slice_bandD slice_bandE)
open Cert.Mlp (row vec row_shapeCast)

/-- The updated edge features as one function of the arguments: the edge update of the node table's rows at the
    (wrapped) source indices, its rows at the destination indices, and the edge rows. -/
def result (x0 : S50000x128.Idx → EReal) (x1 : S500000x128.Idx → EReal) (x2 : IVec S2x500000 32)
    (x3 : S384x256.Idx → EReal) (x4 : S256.Idx → EReal) (x5 : S256x128.Idx → EReal) (x6 : S128.Idx → EReal) :
    S500000x128.Idx → EReal :=
  upd (taken x0 (srcIdx x2)) (taken x0 (dstIdx x2)) x1 (bandS x3) (bandD x3) (bandE x3) (vec x4) x5 (vec x6)

variable (m : (ℓ : Loc nD τ sig) → Buf (Elt Ideal) ℓ) (ρ : Dev nD → PrngReg)

/-- Where every edge index is a node index, the edge update of the arrays the region finds is `result` of the arguments. -/
theorem whole_eq (c : Dev nD) (hI : ∀ i, NodeIdx (aIdx m c i)) :
    whole m c = result (aNode m c) (aEdge m c) (aIdx m c) (aW1 m c) (aB1 m c) (aW2 m c) (aB2 m c) := by
  unfold whole result
  rw [show arrS m c = _ from V_src m c, show arrD m c = _ from V_dst m c,
    show arrE m c = aEdge m c from V_main_arg1 m c,
    show arrWs m c = _ from V_Ws m c, show arrWd m c = _ from V_Wd m c, show arrWe m c = _ from V_We m c,
    show arrB1 m c = _ from V_b1 m c, show arrW2 m c = aW2 m c from V_main_arg5 m c, show arrB2 m c = _ from V_b2 m c,
    guarded_eq _ _ (fun e => by rw [srcIdx_apply]; exact hI _),
    guarded_eq _ _ (fun e => by rw [dstIdx_apply]; exact hI _),
    slice_bandS, slice_bandD, slice_bandE, row_shapeCast, row_shapeCast]

/-- The run, read: the result array at `result` of the arguments, the arguments unchanged. -/
theorem run_result (hI : ∀ (c : Dev nD) i, NodeIdx (aIdx m c i)) :
    θ_run defs (onTc (τ := τ) (main (F := Ideal))) ⟨m, fun _ => 0, ρ⟩ fun r => ∀ c : Dev nD,
      r.2.mem ((c : Thread nD τ).loc main_v11)
        = result (aNode m c) (aEdge m c) (aIdx m c) (aW1 m c) (aB1 m c) (aW2 m c) (aB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (whole_eq m c (hI c)), (h c).2⟩) (run m ρ)

end Cert.KernelIdeal.Hand

end
-- ==== Proof.lean ====
/-
  The claims.  An edge-update layer of a message-passing network: for every edge, the node table's rows at the edge's
  source and destination and the edge's own row go through a two-stage perceptron (384 -> 256, rectifier, 256 -> 128) whose
  result is added to the edge row.  The kernel gathers the rows on the host (fill-mode gathers) and runs the perceptron
  block by block with the 384-wide first stage split into three 128-wide products; the reference concatenates the three
  rows and runs one 384-wide product.  Under the precondition (finite floats; every edge index a node index, 0 <= i < 50000)
  both end at the same function of the arguments: the fill-mode gather is the plain gather at node indices, and a sum
  over 384 terms is the sum of its three 128-term parts.  The ideal pass rewrote nothing, so preserves is trivial; the
  kernels' frames are the generated ones and the reference's is its generated run.
-/
import proofs.«422206_j15040975470645_1_alg».proof.Defs
import proofs.«422206_j15040975470645_1_alg».proof.Proof.Gen.Kernel
import proofs.«422206_j15040975470645_1_alg».proof.Proof.Gen.Kernel.Skeleton
import proofs.«422206_j15040975470645_1_alg».proof.Proof.Gen.Kernel.Launch
import proofs.«422206_j15040975470645_1_alg».proof.Proof.Gen.Kernel.Points
import proofs.«422206_j15040975470645_1_alg».proof.Proof.Gen.Kernel.Frame
import proofs.«422206_j15040975470645_1_alg».proof.Proof.Gen.KernelIdeal
import proofs.«422206_j15040975470645_1_alg».proof.Proof.Gen.KernelIdeal.Skeleton
import proofs.«422206_j15040975470645_1_alg».proof.Proof.Gen.KernelIdeal.Launch
import proofs.«422206_j15040975470645_1_alg».proof.Proof.Gen.KernelIdeal.Points
import proofs.«422206_j15040975470645_1_alg».proof.Proof.Gen.KernelIdeal.Frame
import proofs.«422206_j15040975470645_1_alg».proof.Proof.Gen.ReferenceIdeal
import proofs.«422206_j15040975470645_1_alg».proof.Proof.Gen.Pre_finite_inputs
import proofs.«422206_j15040975470645_1_alg».proof.Proof.Gen.KernelIdeal.Value
import proofs.«422206_j15040975470645_1_alg».proof.Proof.Gen.ReferenceIdeal.Run
import proofs.«422206_j15040975470645_1_alg».proof.Proof.LibMlp
import proofs.«422206_j15040975470645_1_alg».proof.Proof.EdgeSpec
import proofs.«422206_j15040975470645_1_alg».proof.Proof.EdgeSpell
import proofs.«422206_j15040975470645_1_alg».proof.Proof.IndexRange
import proofs.«422206_j15040975470645_1_alg».proof.Proof.PreRange
import proofs.«422206_j15040975470645_1_alg».proof.Proof.KernelEntry
import proofs.«422206_j15040975470645_1_alg».proof.Proof.KernelValue
import proofs.«422206_j15040975470645_1_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem
open Cert.EdgeMlp (host_upd bandS bandD bandE NodeIdx)
open Cert.KernelIdeal.Hand (result run_result aNode aEdge aIdx aW1 aB1 aW2 aB2)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at `result` of the arguments: the kernel by its run read block by block, the reference because its
    one 384-wide contraction of the concatenated rows is the three 128-wide ones against the bands of W1. -/
theorem algebraic : Cert.algebraic_KernelIdeal_ReferenceIdeal := by
  intro m ρ m' ρ' hpre hagree
  have hI : ∀ (c : Dev Cert.KernelIdeal.nD) i, NodeIdx (aIdx m c i) := fun c i =>
    Cert.Pre_finite_inputs.Range.nodeIdx_of_pre _ _ _ _ _ _ _ (hpre c) i
  refine ⟨fun c => result (aNode m c) (aEdge m c) (aIdx m c) (aW1 m c) (aB1 m c) (aW2 m c) (aB2 m c),
    run_result m ρ hI, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact host_upd Cert.ReferenceIdeal.dot_S500000x384_S384x256_S500000x256_1_0_0_1_n_n rfl
    Cert.ReferenceIdeal.dot_S500000x256_S256x128_S500000x128_1_0_0_1_n_n rfl
    Cert.ReferenceIdeal.Gen.concatenates_S500000x128_S500000x128_S500000x128_S500000x384_d1
    Cert.ReferenceIdeal.Gen.bcast_S_S500000x256 Cert.ReferenceIdeal.Gen.bcast_S256_S1x256_1
    Cert.ReferenceIdeal.Gen.bcast_S1x256_S500000x256_0_1 Cert.ReferenceIdeal.Gen.bcast_S128_S1x128_1
    Cert.ReferenceIdeal.Gen.bcast_S1x128_S500000x128_0_1 _ _ _ _ _ _ _ (bandS _) (bandD _) (bandE _)
    (fun _ _ => rfl) (fun _ _ => rfl) (fun _ _ => rfl)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
